-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S1x128 : Shape := ⟨2, ![1, 128]⟩

abbrev nBuf : Space → Nat
  | .hbm => 57
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000x1, .f32⟩
  | .hbm, ⟨27, _⟩ => ⟨S_, .f32⟩
  | .hbm, ⟨28, _⟩ => ⟨S100000x1, .f32⟩
  | .hbm, ⟨29, _⟩ => ⟨S1600000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S1600000x1, .f32⟩
  | .hbm, ⟨60, _⟩ => ⟨S_, .f32⟩
  | .hbm, ⟨61, _⟩ => ⟨S100000x1, .f32⟩
  | .hbm, ⟨62, _⟩ => ⟨S1600000x1, .i32⟩
  | .hbm, ⟨63, _⟩ => ⟨S100000x1, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageSpec.lean ====
/-
  Two mean-aggregating graph layers over 100000 nodes with 128 features, as functions on the extended reals.

  One dense step takes the normalised neighbour sum `mean` and the node features `x` and returns, at node `p`
  and feature `q`,   (Σₖ mean[p,k]·Wl[k,q]  +  Σₖ x[p,k]·Wr[k,q])  +  b[q].
  The whole network is two such steps, the first followed by max(·, 0), each fed with the normalised
  neighbour sum `N` of its own input:   h = relu (dense (N x) x …),  out = dense (N h) h ….
  `N` is left a parameter: the two programs compute it by the same gather and scatter-add and differ only in how
  they divide by the in-degree.
-/
import Idealize.ShloMosaic.PureOps.Ideal
import Idealize.ShloMosaic.Lib.ValueIdx

noncomputable section

open Idealize.ShloMosaic Idealize.ShloMosaic.ValueIdx

namespace Cert.Sage

/-- node features: 100000 × 128 -/
abbrev SN : Shape := ⟨2, ![100000, 128]⟩
/-- a weight matrix: 128 × 128 -/
abbrev SW : Shape := ⟨2, ![128, 128]⟩
/-- a bias row: 128 -/
abbrev SB : Shape := ⟨1, ![128]⟩

/-- One dense step at node `p`, feature `q`: the two matrix products added, then the bias. -/
def denseAt (mean x : SN.Idx → EReal) (Wl : SW.Idx → EReal) (b : SB.Idx → EReal) (Wr : SW.Idx → EReal)
    (p : Fin 100000) (q : Fin 128) : EReal :=
  ((∑ k : Fin 128, mean (ix2 p k) * Wl (ix2 k q)) + ∑ k : Fin 128, x (ix2 p k) * Wr (ix2 k q)) + b (ix1 q)

/-- One dense step as a whole array. -/
def dense (mean x : SN.Idx → EReal) (Wl : SW.Idx → EReal) (b : SB.Idx → EReal) (Wr : SW.Idx → EReal) : SN.Idx → EReal :=
  fun i => denseAt mean x Wl b Wr (i 0) (i 1)

/-- max(·, 0), the zero spelt as the f32 word both programs print. -/
def relu (v : SN.Idx → EReal) : SN.Idx → EReal := fun i => max (v i) (Ideal.ofBits .f32 0x00000000#32)

/-- The two layers: `N` is the normalised neighbour sum of a feature array. -/
def net (N : (SN.Idx → EReal) → (SN.Idx → EReal)) (x : SN.Idx → EReal)
    (Wl1 : SW.Idx → EReal) (b1 : SB.Idx → EReal) (Wr1 : SW.Idx → EReal)
    (Wl2 : SW.Idx → EReal) (b2 : SB.Idx → EReal) (Wr2 : SW.Idx → EReal) : SN.Idx → EReal :=
  dense (N (relu (dense (N x) x Wl1 b1 Wr1))) (relu (dense (N x) x Wl1 b1 Wr1)) Wl2 b2 Wr2

/-- Multiplying by the reciprocal of a divisor that is at least one is dividing by it, at the infinities too:
    such a divisor is not zero, and off zero the quotient is the product with the inverse. -/
theorem mul_one_div {y : EReal} (hy : 1 ≤ y) (x : EReal) : x * Ideal.div 1 y = Ideal.div x y := by
  have hne : y ≠ 0 := fun h => by rw [h] at hy; exact absurd hy (by norm_num)
  rw [Ideal.div, Ideal.div, if_neg hne, if_neg hne, one_mul]

end Cert.Sage

end
-- ==== Proof.KHost.lean ====
/-
  The host stretches of the idealized kernel program, read as pure functions of the arguments.

  Before each dense step the program forms the normalised neighbour sum of a feature array f: it gathers the rows of f
  at the (wrapped) source indices, adds them onto the destination rows, and multiplies row n by 1 / max(deg n, 1), where
  deg counts the edges whose destination is n. The source indices, the destination indices and the reciprocal column are
  computed once, before the first region, and read again before the second.
-/
import proofs.«172953_j52390011076772_1_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- The edges' source nodes: row 0 of the edge list. -/
def srcK (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- The edges' destination nodes: row 1 of the edge list. -/
def dstK (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- The in-degree of every node: a one added at its destination for every edge. -/
def degK (ei : (⟨S2x1600000, .i32⟩ : BufTy).Contents (Elt F)) : (⟨S100000, .f32⟩ : BufTy).Contents (Elt F) :=
  Host.scatterAdd scatter_S100000_S1600000x1_S1600000_n_0_0_1 (broadcastInDim S100000 ![] bcast_S_S100000 (constant S_ .f32 0x00000000#32))
    (broadcastInDim S1600000x1 ![0] bcast_S1600000_S1600000x1_0 (dstK ei)) (broadcastInDim S1600000 ![] bcast_S_S1600000 (constant S_ .f32 0x3F800000#32))

/-- The column of reciprocals 1 / max(deg, 1). -/
def invK (ei : (⟨S2x1600000, .i32⟩ : BufTy).Contents (Elt F)) : (⟨S100000x1, .f32⟩ : BufTy).Contents (Elt F) :=
  broadcastInDim S100000x1 ![0] bcast_S100000_S100000x1_0
    (Host.divf (broadcastInDim S100000 ![] bcast_S_S100000 (constant S_ .f32 0x3F800000#32))
      (maximumf (degK ei) (broadcastInDim S100000 ![] bcast_S_S100000 (constant S_ .f32 0x3F800000#32))))

/-- The neighbour sum of f: rows gathered at the wrapped source indices, added onto the destination rows. -/
def sumK (src dst : (⟨S1600000, .i32⟩ : BufTy).Contents (Elt F)) (f : (⟨S100000x128, .f32⟩ : BufTy).Contents (Elt F)) :
    (⟨S100000x128, .f32⟩ : BufTy).Contents (Elt F) :=
  Host.scatterAdd scatter_S100000x128_S1600000x1_S1600000x128_1_0_0_1 (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 f
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The normalised neighbour sum from the three host values: the sum, each row times its reciprocal. -/
def meanK (src dst : (⟨S1600000, .i32⟩ : BufTy).Contents (Elt F)) (inv : (⟨S100000x1, .f32⟩ : BufTy).Contents (Elt F))
    (f : (⟨S100000x128, .f32⟩ : BufTy).Contents (Elt F)) : (⟨S100000x128, .f32⟩ : BufTy).Contents (Elt F) :=
  mulf (sumK src dst f) (broadcastInDim S100000x128 ![0, 1] bcast_S100000x1_S100000x128_0_1 inv)

/-- The kernel program's normalised neighbour sum of f for the edge list ei. -/
def NK (ei : (⟨S2x1600000, .i32⟩ : BufTy).Contents (Elt F)) (f : (⟨S100000x128, .f32⟩ : BufTy).Contents (Elt F)) :
    (⟨S100000x128, .f32⟩ : BufTy).Contents (Elt F) :=
  meanK (srcK ei) (dstK ei) (invK ei) f

variable (m : (ℓ : Loc nD τ sig) → Buf (Elt F) ℓ) (ρ : Dev nD → PrngReg)

/-- Entering the first region, the mean window's array is the normalised neighbour sum of the node features. -/
theorem V1_v24 (c : Dev nD) : V1 m ρ c main_v24 = NK (m ((c.tc : Thread nD τ).loc main_arg1)) (m ((c.tc : Thread nD τ).loc main_arg0)) := by
  show StableHlo.after hostOps0 (W0 m ρ c) (Proc.devRef .tc main_v24) = _
  after_results_simp
  rfl

/-- The first stretch writes no argument: the first region finds each as launched. -/
theorem V1_arg0 (c : Dev nD) : V1 m ρ c main_arg0 = (m ((c.tc : Thread nD τ).loc main_arg0)) := by
  show StableHlo.after hostOps0 (W0 m ρ c) (Proc.devRef .tc main_arg0) = _
  after_results_simp <;> rfl
theorem V1_arg2 (c : Dev nD) : V1 m ρ c main_arg2 = (m ((c.tc : Thread nD τ).loc main_arg2)) := by
  show StableHlo.after hostOps0 (W0 m ρ c) (Proc.devRef .tc main_arg2) = _
  after_results_simp <;> rfl
theorem V1_arg3 (c : Dev nD) : V1 m ρ c main_arg3 = (m ((c.tc : Thread nD τ).loc main_arg3)) := by
  show StableHlo.after hostOps0 (W0 m ρ c) (Proc.devRef .tc main_arg3) = _
  after_results_simp <;> rfl
theorem V1_arg4 (c : Dev nD) : V1 m ρ c main_arg4 = (m ((c.tc : Thread nD τ).loc main_arg4)) := by
  show StableHlo.after hostOps0 (W0 m ρ c) (Proc.devRef .tc main_arg4) = _
  after_results_simp <;> rfl

/-- The three host values the second stretch reads again, as the first stretch left them. -/
theorem W1_v1 (c : Dev nD) : W1 m ρ c (Proc.devRef .tc main_v1) = srcK (m ((c.tc : Thread nD τ).loc main_arg1)) := by
  show StableHlo.after hostOps0 (W0 m ρ c) (Proc.devRef .tc main_v1) = _
  after_results_simp
  rfl
theorem W1_v3 (c : Dev nD) : W1 m ρ c (Proc.devRef .tc main_v3) = dstK (m ((c.tc : Thread nD τ).loc main_arg1)) := by
  show StableHlo.after hostOps0 (W0 m ρ c) (Proc.devRef .tc main_v3) = _
  after_results_simp
  rfl
theorem W1_v12 (c : Dev nD) : W1 m ρ c (Proc.devRef .tc main_v12) = invK (m ((c.tc : Thread nD τ).loc main_arg1)) := by
  show StableHlo.after hostOps0 (W0 m ρ c) (Proc.devRef .tc main_v12) = _
  after_results_simp
  rfl

/-- The first region writes only its own output array: the three host values pass it untouched. -/
theorem W2_v1 (c : Dev nD) : W2 m ρ c (Proc.devRef .tc main_v1) = srcK (m ((c.tc : Thread nD τ).loc main_arg1)) :=
  (W2_of_ne m ρ c main_v1 (by decide)).trans (W1_v1 m ρ c)
theorem W2_v3 (c : Dev nD) : W2 m ρ c (Proc.devRef .tc main_v3) = dstK (m ((c.tc : Thread nD τ).loc main_arg1)) :=
  (W2_of_ne m ρ c main_v3 (by decide)).trans (W1_v3 m ρ c)
theorem W2_v12 (c : Dev nD) : W2 m ρ c (Proc.devRef .tc main_v12) = invK (m ((c.tc : Thread nD τ).loc main_arg1)) :=
  (W2_of_ne m ρ c main_v12 (by decide)).trans (W1_v12 m ρ c)

/-- Entering the second region, the mean window's array is the normalised neighbour sum of the first region's output. -/
theorem V3_v37 (c : Dev nD) : V3 m ρ c main_v37 = NK (m ((c.tc : Thread nD τ).loc main_arg1)) (W2 m ρ c (Proc.devRef .tc main_v25)) := by
  have e : V3 m ρ c main_v37 = meanK (W2 m ρ c (Proc.devRef .tc main_v1)) (W2 m ρ c (Proc.devRef .tc main_v3))
      (W2 m ρ c (Proc.devRef .tc main_v12)) (W2 m ρ c (Proc.devRef .tc main_v25)) := by
    show StableHlo.after hostOps1 (W2 m ρ c) (Proc.devRef .tc main_v37) = _
    after_results_simp
    rfl
  rw [e, W2_v1, W2_v3, W2_v12]
  rfl

/-- The second stretch writes neither the first region's output nor an argument. -/
theorem V3_v25 (c : Dev nD) : V3 m ρ c main_v25 = W2 m ρ c (Proc.devRef .tc main_v25) := by
  show StableHlo.after hostOps1 (W2 m ρ c) (Proc.devRef .tc main_v25) = _
  after_results_simp <;> rfl
theorem V3_arg5 (c : Dev nD) : V3 m ρ c main_arg5 = (m ((c.tc : Thread nD τ).loc main_arg5)) := by
  have e : V3 m ρ c main_arg5 = W2 m ρ c (Proc.devRef .tc main_arg5) := by
    show StableHlo.after hostOps1 (W2 m ρ c) (Proc.devRef .tc main_arg5) = _
    after_results_simp <;> rfl
  rw [e, W2_of_ne m ρ c main_arg5 (by decide)]
  show StableHlo.after hostOps0 (W0 m ρ c) (Proc.devRef .tc main_arg5) = _
  after_results_simp <;> rfl
theorem V3_arg6 (c : Dev nD) : V3 m ρ c main_arg6 = (m ((c.tc : Thread nD τ).loc main_arg6)) := by
  have e : V3 m ρ c main_arg6 = W2 m ρ c (Proc.devRef .tc main_arg6) := by
    show StableHlo.after hostOps1 (W2 m ρ c) (Proc.devRef .tc main_arg6) = _
    after_results_simp <;> rfl
  rw [e, W2_of_ne m ρ c main_arg6 (by decide)]
  show StableHlo.after hostOps0 (W0 m ρ c) (Proc.devRef .tc main_arg6) = _
  after_results_simp <;> rfl
theorem V3_arg7 (c : Dev nD) : V3 m ρ c main_arg7 = (m ((c.tc : Thread nD τ).loc main_arg7)) := by
  have e : V3 m ρ c main_arg7 = W2 m ρ c (Proc.devRef .tc main_arg7) := by
    show StableHlo.after hostOps1 (W2 m ρ c) (Proc.devRef .tc main_arg7) = _
    after_results_simp <;> rfl
  rw [e, W2_of_ne m ρ c main_arg7 (by decide)]
  show StableHlo.after hostOps0 (W0 m ρ c) (Proc.devRef .tc main_arg7) = _
  after_results_simp <;> rfl

end Cert.KernelIdeal.Hand

end
-- ==== Proof.KBody.lean ====
/-
  The arithmetic of the two dense steps read at one element.

  Each region's body forms, from a block of the normalised neighbour sum, the matching block of the node
  features, two weight matrices and a bias row, the array whose element at row `p` and column `q` is
      (Σₖ mean[p,k]·Wl[k,q]  +  Σₖ x[p,k]·Wr[k,q])  +  b[q],
  the first region then taking the maximum with zero. Over the extended reals a change of float format is the
  identity, a product accumulated into the zero array is the plain sum over the contracted axis, and the bias row,
  first given a unit leading axis and then repeated over the rows, reads at `(p, q)` its entry `q`.
-/
import proofs.«172953_j52390011076772_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ## The operand indices of the rows-times-columns product -/

/-- The left operand is read in the output's row … -/
private theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … at the contracted position; -/
private theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted position … -/
private theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … in the output's column. -/
private theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## One matrix product at an element -/

/-- A block of rows times a square matrix, accumulated into zero: at `(p, q)` the sum over `k` of
    `a[p,k]·b[k,q]`. -/
private theorem prod_at {φ₁ φ₂ : FTy} (a : FVec Ideal S5000x128 φ₁) (b : FVec Ideal S128x128 φ₂) (p : Fin 5000) (q : Fin 128) :
    matmul (F := Ideal) dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The bias row repeated over the rows -/

/-- The bias, given a unit leading axis and repeated over the 5000 rows, reads at `(p, q)` its entry `q`. -/
private theorem bias_at (b : Vec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans
    (shapeCast_a_1a_apply b shapeCasts_S128_S1x128 (0 : Fin 1) q)

/-! ## The two bodies -/

/-- The first region's body at `(p, q)`: the dense step's element, then the maximum with zero. -/
theorem pay0_at (x0 x1 : Vec Ideal S5000x128 .f32) (x2 x4 : Vec Ideal S128x128 .f32) (x3 : Vec Ideal S128 .f32) (p : Fin 5000) (q : Fin 128) :
    k0_pay1 (F := Ideal) x0 x1 x2 x4 x3 (ix2 p q)
      = max (((∑ k : Fin 128, x0 (ix2 p k) * x2 (ix2 k q)) + ∑ k : Fin 128, x1 (ix2 p k) * x4 (ix2 k q)) + x3 (ix1 q)) (Ideal.ofBits .f32 0x00000000#32) := by
  unfold k0_pay1
  rw [shapeCast_self]
  refine (maximumf_apply _ _ _).trans ?_
  refine congrArg₂ max ?_ rfl
  refine (addf_apply _ _ _).trans ?_
  refine congrArg₂ (· + ·) ?_ (bias_at x3 p q)
  refine (addf_apply _ _ _).trans ?_
  exact congrArg₂ (· + ·) (prod_at _ _ p q) (prod_at _ _ p q)

/-- The second region's body at `(p, q)`: the dense step's element. -/
theorem pay1_at (x0 x1 : Vec Ideal S5000x128 .f32) (x2 x4 : Vec Ideal S128x128 .f32) (x3 : Vec Ideal S128 .f32) (p : Fin 5000) (q : Fin 128) :
    k1_pay1 (F := Ideal) x0 x1 x2 x4 x3 (ix2 p q)
      = ((∑ k : Fin 128, x0 (ix2 p k) * x2 (ix2 k q)) + ∑ k : Fin 128, x1 (ix2 p k) * x4 (ix2 k q)) + x3 (ix1 q) := by
  unfold k1_pay1
  rw [shapeCast_self, shapeCast_self]
  refine (addf_apply _ _ _).trans ?_
  refine congrArg₂ (· + ·) ?_ (bias_at x3 p q)
  refine (addf_apply _ _ _).trans ?_
  exact congrArg₂ (· + ·) (prod_at _ _ p q) (prod_at _ _ p q)

end Cert.KernelIdeal.Hand

end
-- ==== Proof.KArr.lean ====
/-
  What each of the two regions leaves in its output array, as one function of the region's input arrays.

  A region runs over 20 grid points. At point `t` it reads rows `5000·t … 5000·t + 4999` of the normalised
  neighbour sum and of the node features, the two weight matrices and the bias whole, and writes back rows
  `5000·t … 5000·t + 4999` of its output. The body's element at row `p` of the block and column `q` is the dense
  step at row `5000·t + p`, column `q` (followed, in the first region, by the maximum with zero), so what point `t`
  writes back is block `t` of one whole-array function. The 20 blocks tile the 100000 rows — row `r` lies in block
  `r / 5000` —, hence the output array ends holding that function everywhere.
-/
import proofs.«172953_j52390011076772_1_alg».proof.Proof.Gen.KernelIdeal.Frame
import proofs.«172953_j52390011076772_1_alg».proof.Proof.KBody
import proofs.«172953_j52390011076772_1_alg».proof.Proof.SageSpec
import Idealize.ShloMosaic.Lib.Pipeline.Value

set_option maxRecDepth 16384

noncomputable section

namespace Cert.KernelIdeal.Hand

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## Zero offsets, however spelt -/

private theorem zero2 : (![0, 0] : Fin 2 → Nat) = fun _ => 0 := funext fun a => by fin_cases a <;> rfl
private theorem zero1 : (![0] : Fin 1 → Nat) = fun _ => 0 := funext fun a => by fin_cases a <;> rfl

/-! ## One dense step from blocks -/

/-- If, at row `p` of a block and column `q`, the two row blocks read the arrays' row `i 0`, the weight blocks
    the weights' column `i 1` and the bias block the bias' entry `i 1`, then the body's sum at `(p, q)` is the
    dense step at `i`. -/
private theorem dense_of_blocks (mean x : Cert.Sage.SN.Idx → EReal) (Wl : Cert.Sage.SW.Idx → EReal) (b : Cert.Sage.SB.Idx → EReal)
    (Wr : Cert.Sage.SW.Idx → EReal)
    (x0 x1 : S5000x128.Idx → EReal) (x2 x4 : S128x128.Idx → EReal) (x3 : S128.Idx → EReal)
    (i : Cert.Sage.SN.Idx) (p : Fin 5000) (q : Fin 128)
    (h0 : ∀ k : Fin 128, x0 (ix2 p k) = mean (ix2 (i 0) k))
    (h1 : ∀ k : Fin 128, x1 (ix2 p k) = x (ix2 (i 0) k))
    (h2 : ∀ k : Fin 128, x2 (ix2 k q) = Wl (ix2 k (i 1)))
    (h4 : ∀ k : Fin 128, x4 (ix2 k q) = Wr (ix2 k (i 1)))
    (h3 : x3 (ix1 q) = b (ix1 (i 1))) :
    ((∑ k : Fin 128, x0 (ix2 p k) * x2 (ix2 k q)) + ∑ k : Fin 128, x1 (ix2 p k) * x4 (ix2 k q)) + x3 (ix1 q)
      = Cert.Sage.dense mean x Wl b Wr i := by
  show _ = ((∑ k : Fin 128, mean (ix2 (i 0) k) * Wl (ix2 k (i 1))) + ∑ k : Fin 128, x (ix2 (i 0) k) * Wr (ix2 k (i 1)))
    + b (ix1 (i 1))
  exact congrArg₂ (· + ·)
    (congrArg₂ (· + ·) (Finset.sum_congr rfl fun k _ => congrArg₂ (· * ·) (h0 k) (h2 k))
      (Finset.sum_congr rfl fun k _ => congrArg₂ (· * ·) (h1 k) (h4 k)))
    h3

/-! # The first region -/

/-- What the first region's output array ends holding: the dense step of its input arrays, then max(·, 0). -/
private abbrev G0 (c : Dev nD) : S100000x128.Idx → EReal :=
  Cert.Sage.relu (Cert.Sage.dense (V c main_v24) (V c main_arg0) (V c main_arg2) (V c main_arg3) (V c main_arg4))

/-- The index maps over the 20 grid points: the two row windows and the output move together, point `t` at block
    row `t`; the weights and the bias are whole. -/
private theorem idx0 : ∀ t : Fin cfg0.N, win0_5.index t (0 : Fin 2) = t.val
    ∧ win0_5.index t (1 : Fin 2) = 0
    ∧ win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 1) = 0
    ∧ win0_4.index t (0 : Fin 2) = 0
    ∧ win0_4.index t (1 : Fin 2) = 0 :=
  (by decide +kernel : ∀ t : Fin grid0.N, _)

/-- What point `t` writes back is block `t` of `G0`. -/
private theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 V c).after 5 t) = _
  rw [after0_5]
  unfold out0_5
  rw [View.canon_unit_zero zero2]
  simp only [View.ld_unit_zero (S := S5000x128) zero2, View.ld_unit_zero (S := S128x128) zero2, View.ld_unit_zero (S := S128) zero1]
  obtain ⟨e50, e51, e00, e01, e10, e11, e20, e21, e30, e40, e41⟩ := idx0 t
  refine funext fun (j : S5000x128.Idx) => ?_
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
    = G0 V c (((cfg0.win 5).blk t).view.emb (ix2 p q))
  refine (pay0_at _ _ _ _ _ p q).trans ?_
  refine congrArg₂ max ?_ rfl
  refine dense_of_blocks _ _ _ _ _ _ _ _ _ _ _ p q (fun k => ?_) (fun k => ?_) (fun k => ?_) (fun k => ?_) ?_
  · show V c main_v24 (((cfg0.win 0).blk t).view.emb (ix2 p k)) = V c main_v24 _
    refine congrArg (V c main_v24) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · show V c main_arg0 (((cfg0.win 1).blk t).view.emb (ix2 p k)) = V c main_arg0 _
    refine congrArg (V c main_arg0) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  · show V c main_arg2 (((cfg0.win 2).blk t).view.emb (ix2 k q)) = V c main_arg2 _
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  · show V c main_arg4 (((cfg0.win 4).blk t).view.emb (ix2 k q)) = V c main_arg4 _
    refine congrArg (V c main_arg4) (funext fun a => Fin.ext ?_)
    match a with
    | ⟨0, _⟩ => show win0_4.index t (0 : Fin 2) * 128 + 1 * k.val = k.val; omega
    | ⟨1, _⟩ => show win0_4.index t (1 : Fin 2) * 128 + 1 * q.val = win0_5.index t (1 : Fin 2) * 128 + 1 * q.val; omega
  · show V c main_arg3 (((cfg0.win 3).blk t).view.emb (ix1 q)) = V c main_arg3 _
    refine congrArg (V c main_arg3) (funext fun a => Fin.ext ?_)
    match a with
    | ⟨0, _⟩ => show win0_3.index t (0 : Fin 1) * 128 + 1 * q.val = win0_5.index t (1 : Fin 2) * 128 + 1 * q.val; omega

/-- An index of the output array is in point `t`'s block iff each coordinate is in the block's range on its axis. -/
private theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- Row `r` of the output array lies in the block of point `r / 5000`: the 20 blocks tile the array. -/
private theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by show (i 0).val / 5000 < 20; omega⟩, rfl⟩
  obtain ⟨e50, e51, -⟩ := idx0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The first region's output array after the region: the dense step of its input arrays, then max(·, 0). -/
theorem arr0 (c : Dev nD) :
    (dat0 (F := Ideal) V c).arrAt 5 cfg0.N
      = Cert.Sage.relu (Cert.Sage.dense (V c main_v24) (V c main_arg0) (V c main_arg2) (V c main_arg3) (V c main_arg4)) :=
  (dat0 V c).arrAt_eq_of_cover 5 (G0 V c) (fun t _ => flushed0_eq V c t) cover0

/-! # The second region -/

/-- What the second region's output array ends holding: the dense step of its input arrays. -/
private abbrev G1 (c : Dev nD) : S100000x128.Idx → EReal :=
  Cert.Sage.dense (V c main_v37) (V c main_v25) (V c main_arg5) (V c main_arg6) (V c main_arg7)

/-- The index maps over the 20 grid points: the two row windows and the output move together, point `t` at block
    row `t`; the weights and the bias are whole. -/
private theorem idx1 : ∀ t : Fin cfg1.N, win1_5.index t (0 : Fin 2) = t.val
    ∧ win1_5.index t (1 : Fin 2) = 0
    ∧ win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 2) = 0
    ∧ win1_4.index t (1 : Fin 2) = 0 :=
  (by decide +kernel : ∀ t : Fin grid1.N, _)

/-- What point `t` writes back is block `t` of `G1`. -/
private theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero zero2]
  simp only [View.ld_unit_zero (S := S5000x128) zero2, View.ld_unit_zero (S := S128x128) zero2, View.ld_unit_zero (S := S128) zero1]
  obtain ⟨e50, e51, e00, e01, e10, e11, e20, e21, e30, e40, e41⟩ := idx1 t
  refine funext fun (j : S5000x128.Idx) => ?_
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 4 t) (iblk1 V c 3 t) (ix2 p q)
    = G1 V c (((cfg1.win 5).blk t).view.emb (ix2 p q))
  refine (pay1_at _ _ _ _ _ p q).trans ?_
  refine dense_of_blocks _ _ _ _ _ _ _ _ _ _ _ p q (fun k => ?_) (fun k => ?_) (fun k => ?_) (fun k => ?_) ?_
  · show V c main_v37 (((cfg1.win 0).blk t).view.emb (ix2 p k)) = V c main_v37 _
    refine congrArg (V c main_v37) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  · show V c main_v25 (((cfg1.win 1).blk t).view.emb (ix2 p k)) = V c main_v25 _
    refine congrArg (V c main_v25) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  · show V c main_arg5 (((cfg1.win 2).blk t).view.emb (ix2 k q)) = V c main_arg5 _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * q.val = win1_5.index t (1 : Fin 2) * 128 + 1 * q.val; omega
  · show V c main_arg7 (((cfg1.win 4).blk t).view.emb (ix2 k q)) = V c main_arg7 _
    refine congrArg (V c main_arg7) (funext fun a => Fin.ext ?_)
    match a with
    | ⟨0, _⟩ => show win1_4.index t (0 : Fin 2) * 128 + 1 * k.val = k.val; omega
    | ⟨1, _⟩ => show win1_4.index t (1 : Fin 2) * 128 + 1 * q.val = win1_5.index t (1 : Fin 2) * 128 + 1 * q.val; omega
  · show V c main_arg6 (((cfg1.win 3).blk t).view.emb (ix1 q)) = V c main_arg6 _
    refine congrArg (V c main_arg6) (funext fun a => Fin.ext ?_)
    match a with
    | ⟨0, _⟩ => show win1_3.index t (0 : Fin 1) * 128 + 1 * q.val = win1_5.index t (1 : Fin 2) * 128 + 1 * q.val; omega

/-- An index of the output array is in point `t`'s block iff each coordinate is in the block's range on its axis. -/
private theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v38).slice (win1_5.rect t)).set ↔ _
  rw [View.set_slice_whole, Rect.mem_set_unit]
  exact Iff.rfl

/-- Row `r` of the output array lies in the block of point `r / 5000`: the 20 blocks tile the array. -/
private theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by show (i 0).val / 5000 < 20; omega⟩, rfl⟩
  obtain ⟨e50, e51, -⟩ := idx1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The second region's output array after the region: the dense step of its input arrays. -/
theorem arr1 (c : Dev nD) :
    (dat1 (F := Ideal) V c).arrAt 5 cfg1.N
      = Cert.Sage.dense (V c main_v37) (V c main_v25) (V c main_arg5) (V c main_arg6) (V c main_arg7) :=
  (dat1 V c).arrAt_eq_of_cover 5 (G1 V c) (fun t _ => flushed1_eq V c t) cover1

end Cert.KernelIdeal.Hand

end
-- ==== Proof.KValue.lean ====
/-
  The idealized kernel program's result as the two-layer network of its own normalised neighbour sum.

  The first region leaves h = max(dense(N x, x), 0) in its output array: its mean window's array is N x (the first host
  stretch) and its other windows' arrays are arguments. The second stretch forms N h from that array and the three host
  values the first stretch computed; the second region leaves dense(N h, h) in the result array.
-/
import proofs.«172953_j52390011076772_1_alg».proof.Proof.KHost
import proofs.«172953_j52390011076772_1_alg».proof.Proof.KArr
import proofs.«172953_j52390011076772_1_alg».proof.Proof.KRun
import proofs.«172953_j52390011076772_1_alg».proof.Proof.SageSpec

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- What the first region leaves in its output array: the first layer. -/
theorem W2_v25 (c : Dev nD) :
    W2 m ρ c (Proc.devRef .tc main_v25)
      = Cert.Sage.relu (Cert.Sage.dense (NK (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg3)) (m ((c.tc : Thread nD τ).loc main_arg4))) := by
  rw [show W2 m ρ c (Proc.devRef .tc main_v25) = (dat0 (V1 m ρ) c).arrAt 5 cfg0.N from W2_arr m ρ c 5, arr0,
    V1_v24, V1_arg0, V1_arg2, V1_arg3, V1_arg4]

/-- What the second region leaves in the result array: the second layer of the first. -/
theorem result_eq (c : Dev nD) :
    W4 m ρ c (Proc.devRef .tc main_v38)
      = Cert.Sage.net (NK (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [show W4 m ρ c (Proc.devRef .tc main_v38) = (dat1 (V3 m ρ) c).arrAt 5 cfg1.N from W4_arr m ρ c 5, arr1,
    V3_v37, V3_v25, V3_arg5, V3_arg6, V3_arg7, W2_v25]
  rfl

/-- The run, read: the result array at the network of the arguments, the arguments unchanged. -/
theorem run_net : θ_run defs (onTc (τ := τ) (main (F := Ideal))) ⟨m, fun _ => 0, ρ⟩ (fun r => ∀ c : Dev nD,
      r.2.mem ((c.tc : Thread nD τ).loc main_v38)
        = Cert.Sage.net (NK (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.Named.run_named m ρ)

end Cert.KernelIdeal.Hand

end
-- ==== Proof.RefValue.lean ====
/-
  The reference program's result, index by index, is the two-layer network of `Cert.Sage.net` fed with the
  reference's own normalised neighbour sum.

  Each layer of the reference computes, at node p and feature q,
      (Σₖ mean[p,k]·Wl[k,q] + b[q]) + Σₖ x[p,k]·Wr[k,q],
  which is the specification's (Σₖ mean[p,k]·Wl[k,q] + Σₖ x[p,k]·Wr[k,q]) + b[q] because addition of extended
  reals is commutative and associative. The normalised neighbour sum of the second layer is built from the same
  edge list by the same operations as that of the first, applied to the first layer's output.
-/
import proofs.«172953_j52390011076772_1_alg».proof.Proof.Gen.ReferenceIdeal.Read
import proofs.«172953_j52390011076772_1_alg».proof.Proof.SageSpec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.Sage

/-- The reference's normalised neighbour sum of a feature array f, for the edge list x1: gather the source rows,
    add them onto the destination rows, divide each row by max(in-degree, 1). -/
def NR (x1 : (⟨S2x1600000, .i32⟩ : BufTy).Contents (Elt Ideal)) (f : (⟨S100000x128, .f32⟩ : BufTy).Contents (Elt Ideal)) :
    (⟨S100000x128, .f32⟩ : BufTy).Contents (Elt Ideal) :=
  Host.divf (F := Ideal) (φ := .f32)
    (Host.scatterAdd (F := Ideal) (φ := .f32) scatter_S100000x128_S1600000x1_S1600000x128_1_0_0_1 (val_main_v11 (F := Ideal)) (val_main_v12 (F := Ideal) x1)
      (Host.gather gather_S100000x128_S1600000x1_S1600000x128_1_0_n_n_0_1_1128 f (val_main_v9 (F := Ideal) x1))) (val_main_v20 (F := Ideal) x1)

/-! ## The index functions of the matrix products and of the bias broadcast -/

/-- The left operand of a product is read at row `i 0`, column `k`. -/
theorem lidx_eq (i : S100000x128.Idx) (k : Fin 128) :
    lidx_main_v22 i k = ix2 (n0 := 100000) (n1 := 128) (i 0) k :=
  funext fun a => Fin.ext (by match a with | ⟨0, _⟩ => rfl | ⟨1, _⟩ => rfl)

/-- The right operand of a product is read at row `k`, column `i 1`. -/
theorem ridx_eq (i : S100000x128.Idx) (k : Fin 128) :
    ridx_main_v22 i k = ix2 (n0 := 128) (n1 := 128) k (i 1) :=
  funext fun a => Fin.ext (by match a with | ⟨0, _⟩ => rfl | ⟨1, _⟩ => rfl)

/-- The bias, broadcast first to one row and then to every row, is read at the column `i 1`. -/
theorem bidx_eq (i : S100000x128.Idx) :
    idx_main_v23 (idx_main_v24 i) = ix1 (n := 128) (i 1) :=
  funext fun a => Fin.ext (by match a with | ⟨0, _⟩ => rfl)

/-- One matrix product of the reference, at an index, in the specification's spelling. -/
theorem dot_ix (A : (⟨S100000x128, .f32⟩ : BufTy).Contents (Elt Ideal)) (W : (⟨S128x128, .f32⟩ : BufTy).Contents (Elt Ideal))
    (i : S100000x128.Idx) :
    (∑ k : Fin 128, A (lidx_main_v22 i k) * W (ridx_main_v22 i k))
      = ∑ k : Fin 128, A (ix2 (n0 := 100000) (n1 := 128) (i 0) k) * W (ix2 (n0 := 128) (n1 := 128) k (i 1)) :=
  Finset.sum_congr rfl fun k _ => by rw [lidx_eq, ridx_eq]

/-! ## The first layer -/

/-- The first normalised neighbour sum is `NR` of the node features. -/
theorem norm1 (x0 : (⟨S100000x128, .f32⟩ : BufTy).Contents (Elt Ideal)) (x1 : (⟨S2x1600000, .i32⟩ : BufTy).Contents (Elt Ideal)) :
    val_main_v21 (F := Ideal) x0 x1 = NR x1 x0 := by
  unfold val_main_v21 val_main_v13 val_main_v10 NR
  rfl

/-- The zero that max(·, 0) compares with, at every index. -/
theorem relu_zero (i : S100000x128.Idx) :
    val_main_call0_v0 (F := Ideal) i = Ideal.ofBits .f32 0x00000000#32 := by
  rw [val_main_call0_v0_apply, val_main_call0_cst_apply]
  rfl

/-- The first layer: max(·, 0) of the dense step on the node features and their normalised neighbour sum. -/
theorem layer1 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v28 (F := Ideal) x0 x1 x2 x3 x4 = relu (dense (NR x1 x0) x0 x2 x3 x4) := by
  funext i
  rw [val_main_v28_apply, val_main_v27_apply, val_main_v25_apply, val_main_v22_apply, val_main_v26_apply,
    val_main_v24_apply, val_main_v23_apply, relu_zero, norm1, bidx_eq]
  show max ((_ + _) + _) _ = _
  rw [dot_ix, show (∑ k : Fin 128, x0 (lidx_main_v26 i k) * x4 (ridx_main_v26 i k))
      = ∑ k : Fin 128, x0 (ix2 (n0 := 100000) (n1 := 128) (i 0) k) * x4 (ix2 (n0 := 128) (n1 := 128) k (i 1)) from dot_ix x0 x4 i,
    add_right_comm]
  rfl

/-! ## The second layer -/

/-- The second layer's source-node indices are the first layer's: the same wrap of negative indices of the same
    row of the edge list. -/
theorem src_eq (x1 : (⟨S2x1600000, .i32⟩ : BufTy).Contents (Elt Ideal)) :
    val_main_v34 (F := Ideal) x1 = val_main_v9 (F := Ideal) x1 := by
  unfold val_main_v34 val_main_v33 val_main_v30 val_main_v32 val_main_v29 val_main_v31 val_main_c_4 val_main_c_5
  unfold val_main_v9 val_main_v8 val_main_v5 val_main_v7 val_main_v4 val_main_v6 val_main_c val_main_c_0
  rfl

/-- The second layer's destination-node indices are the first layer's. -/
theorem dst_eq (x1 : (⟨S2x1600000, .i32⟩ : BufTy).Contents (Elt Ideal)) :
    val_main_v37 (F := Ideal) x1 = val_main_v12 (F := Ideal) x1 := by
  unfold val_main_v37 val_main_v12
  rfl

/-- The second layer's scatter-add starts from the same array of zeros. -/
theorem zeros_eq : val_main_v36 (F := Ideal) = val_main_v11 (F := Ideal) := by
  unfold val_main_v36 val_main_v11 val_main_cst_6 val_main_cst
  rfl

/-- The second layer divides by the same max(in-degree, 1). -/
theorem deg_eq (x1 : (⟨S2x1600000, .i32⟩ : BufTy).Contents (Elt Ideal)) :
    val_main_v45 (F := Ideal) x1 = val_main_v20 (F := Ideal) x1 := by
  unfold val_main_v45 val_main_v44 val_main_v42 val_main_v43 val_main_v41 val_main_v40 val_main_v39
    val_main_cst_7 val_main_cst_8 val_main_cst_9
  unfold val_main_v20 val_main_v19 val_main_v17 val_main_v18 val_main_v16 val_main_v15 val_main_v14
    val_main_cst_1 val_main_cst_2 val_main_cst_3
  rfl

/-- The second normalised neighbour sum is `NR` of the first layer's output. -/
theorem norm2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v46 (F := Ideal) x0 x1 x2 x3 x4 = NR x1 (val_main_v28 (F := Ideal) x0 x1 x2 x3 x4) := by
  unfold val_main_v46 val_main_v38 val_main_v35 NR
  rw [src_eq, dst_eq, zeros_eq, deg_eq]

/-- The second layer: the dense step on the first layer's output and its normalised neighbour sum. -/
theorem layer2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v52 (F := Ideal) x0 x1 x2 x3 x4 x5 x6 x7
      = dense (NR x1 (val_main_v28 (F := Ideal) x0 x1 x2 x3 x4)) (val_main_v28 (F := Ideal) x0 x1 x2 x3 x4) x5 x6 x7 := by
  funext i
  rw [val_main_v52_apply, val_main_v50_apply, val_main_v47_apply, val_main_v51_apply,
    val_main_v49_apply, val_main_v48_apply, norm2]
  generalize val_main_v28 (F := Ideal) x0 x1 x2 x3 x4 = h
  show (_ + _) + _ = _
  rw [show (∑ k : Fin 128, NR x1 h (lidx_main_v47 i k) * x5 (ridx_main_v47 i k))
      = ∑ k : Fin 128, NR x1 h (ix2 (n0 := 100000) (n1 := 128) (i 0) k) * x5 (ix2 (n0 := 128) (n1 := 128) k (i 1)) from dot_ix (NR x1 h) x5 i,
    show (∑ k : Fin 128, h (lidx_main_v51 i k) * x7 (ridx_main_v51 i k))
      = ∑ k : Fin 128, h (ix2 (n0 := 100000) (n1 := 128) (i 0) k) * x7 (ix2 (n0 := 128) (n1 := 128) k (i 1)) from dot_ix h x7 i,
    show idx_main_v48 (idx_main_v49 i) = ix1 (n := 128) (i 1) from bidx_eq i,
    add_right_comm]
  rfl

/-! ## The whole program -/

/-- The reference's result is the two-layer network of its normalised neighbour sum. -/
theorem ref_net (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v52 (F := Ideal) x0 x1 x2 x3 x4 x5 x6 x7 = Cert.Sage.net (NR x1) x0 x2 x3 x4 x5 x6 x7 := by
  rw [layer2, layer1]
  rfl

/-- The result buffer the reference's run ends with is that network of the launch contents. -/
theorem res_net (m : (ℓ : Loc nD τ sig) → Buf (Elt Ideal) ℓ) (c : Dev nD) :
    Cert.ReferenceIdeal.Value.res_main_v52 m c
      = Cert.Sage.net (NR (m ((c.tc : Thread nD τ).loc main_arg1))) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (val_main_v52_eq m c).trans (ref_net _ _ _ _ _ _ _ _)

end Cert.ReferenceIdeal.RefValue

end
-- ==== Proof.Count.lean ====
/-
  The in-degree count of a graph on 100000 nodes with 1600000 edges, written two ways.

  Each edge `e` carries a destination word `idx[e,0]`, read as a signed integer `z`. A scatter-add lets update `e`
  land on the operand element whose coordinate on the node axis is `z`, when `0 ≤ z < 100000`, and drops it otherwise.
  Into a rank-1 operand the landing place is `n = z`; into a `100000 × 1` operand it is `(z, 0)`: on the unit axis
  the window starts at `0` and the update's own coordinate there is `0`. So update `e` of the first lands on `n`
  exactly when update `(e, 0)` of the second lands on `(n, 0)`, and along `e ↦ (e, 0)` the two sums over the landing
  updates have the same terms.
-/
import Idealize.ShloMosaic.PureOps.Ideal
import Idealize.ShloMosaic.Lib.ValueIdx

noncomputable section

open scoped BigOperators

open Idealize.ShloMosaic Idealize.ShloMosaic.ValueIdx

namespace Cert.Sage

/-- a count per node: 100000 -/
abbrev SC1 : Shape := ⟨1, ![100000]⟩
/-- a count per node, as a column: 100000 × 1 -/
abbrev SC2 : Shape := ⟨2, ![100000, 1]⟩
/-- a value per edge: 1600000 -/
abbrev SE1 : Shape := ⟨1, ![1600000]⟩
/-- a value per edge, as a column: 1600000 × 1 -/
abbrev SE2 : Shape := ⟨2, ![1600000, 1]⟩

/-- the rank-1 count's dimension numbers -/
def cnt1 : ScatterDims SC1 SE2 SE1 where
  updateWindowDims := []
  insertedWindowDims := [0]
  scatterDimsToOperandDims := [0]
  indexVectorDim := 1

/-- the [N,1] count's dimension numbers -/
def cnt2 : ScatterDims SC2 SE2 SE2 where
  updateWindowDims := [1]
  insertedWindowDims := [0]
  scatterDimsToOperandDims := [0]
  indexVectorDim := 1

/-! ## Where an update reads its destination word -/

/-- Update `e` of the rank-1 count reads its start index at `(e, 0)`: its one coordinate on the edge axis, the
    one component `0` on the index vector's axis. -/
theorem cnt1_siIdx (e : Fin 1600000) (c : Fin cnt1.scatterDimsToOperandDims.length) :
    cnt1.siIdx (ix1 e) c = ix2 e 0 := by
  funext b
  match b with
  | ⟨0, _⟩ => rfl
  | ⟨1, _⟩ =>
    have : c = ⟨0, by decide⟩ := Fin.ext (by have := c.isLt; simp [cnt1] at this; omega)
    subst this; rfl

/-- Update `(e, 0)` of the column count reads its start index at `(e, 0)` too: the edge axis is its one scatter
    axis. -/
theorem cnt2_siIdx (e : Fin 1600000) (c : Fin cnt2.scatterDimsToOperandDims.length) :
    cnt2.siIdx (ix2 e 0) c = ix2 e 0 := by
  funext b
  match b with
  | ⟨0, _⟩ => rfl
  | ⟨1, _⟩ =>
    have : c = ⟨0, by decide⟩ := Fin.ext (by have := c.isLt; simp [cnt2] at this; omega)
    subst this; rfl

/-! ## Window starts and window coordinates, in closed form -/

/-- The rank-1 count's window starts, on its one axis, at the signed destination word. -/
theorem cnt1_start {w : Nat} (e : Fin 1600000) (idx : IVec SE2 w) (a : Fin 1) :
    cnt1.start (ix1 e) idx a = (idx (ix2 e 0)).toInt := by
  obtain rfl : a = 0 := Subsingleton.elim _ _
  unfold ScatterDims.start
  rw [dif_pos (by decide), cnt1_siIdx]

/-- The rank-1 count's one axis is an inserted window axis: the window coordinate there is `0`. -/
theorem cnt1_window (e : Fin 1600000) (a : Fin 1) : cnt1.window (ix1 e) a = 0 := by
  match a with
  | ⟨0, _⟩ => rfl

/-- The column count's window starts, on the node axis, at the signed destination word. -/
theorem cnt2_start0 {w : Nat} (e : Fin 1600000) (idx : IVec SE2 w) :
    cnt2.start (ix2 e 0) idx (0 : Fin 2) = (idx (ix2 e 0)).toInt := by
  unfold ScatterDims.start
  rw [dif_pos (by decide), cnt2_siIdx]

/-- On the unit axis, which the start index does not name, the column count's window starts at `0`. -/
theorem cnt2_start1 {w : Nat} (e : Fin 1600000) (idx : IVec SE2 w) :
    cnt2.start (ix2 e 0) idx (1 : Fin 2) = 0 := by
  unfold ScatterDims.start
  rw [dif_neg (by decide)]

/-- The column count's window coordinates are `0` on both axes: the node axis is inserted, and on the unit axis
    the update's coordinate is the `0` of `(e, 0)`. -/
theorem cnt2_window (e : Fin 1600000) (a : Fin 2) : cnt2.window (ix2 e 0) a = 0 := by
  match a with
  | ⟨0, _⟩ => rfl
  | ⟨1, _⟩ => rfl

/-! ## Which update lands where -/

/-- Update `e` of the rank-1 count lands on node `n` exactly when its signed destination word is `n`: the landing
    coordinate is the word plus `0`, in range because `n` is, and conversely a landing on `n` reads the word back
    off the coordinate, which is not negative. -/
theorem cnt1_lands {w : Nat} (e : Fin 1600000) (idx : IVec SE2 w) (n : Fin 100000) :
    cnt1.resultIdx? (ix1 e) idx = some (ix1 n) ↔ (idx (ix2 e 0)).toInt = (n.val : Int) := by
  have hs : SC1.size (0 : Fin 1) = 100000 := rfl
  unfold ScatterDims.resultIdx?
  constructor
  · intro h
    split at h
    · rename_i hr
      have hv : (cnt1.start (ix1 e) idx 0 + cnt1.window (ix1 e) 0).toNat = n.val :=
        congrArg Fin.val (congrFun (Option.some.inj h) (0 : Fin 1))
      have hr0 := hr 0
      rw [cnt1_start, cnt1_window] at hr0 hv
      omega
    · exact absurd h (by simp)
  · intro hz
    have hr : ∀ a, 0 ≤ cnt1.start (ix1 e) idx a + (cnt1.window (ix1 e) a : Int) ∧
        cnt1.start (ix1 e) idx a + (cnt1.window (ix1 e) a : Int) < SC1.size a := by
      intro a
      obtain rfl : a = 0 := Subsingleton.elim _ _
      rw [cnt1_start, cnt1_window, hz, hs]
      have := n.isLt
      omega
    rw [dif_pos hr]
    congr 1
    funext a
    obtain rfl : a = 0 := Subsingleton.elim _ _
    apply Fin.ext
    show (cnt1.start (ix1 e) idx 0 + (cnt1.window (ix1 e) 0 : Int)).toNat = n.val
    rw [cnt1_start, cnt1_window, hz]; omega

/-- Update `(e, 0)` of the column count lands on `(n, 0)` exactly when the same word is `n`: on the node axis as for
    the rank-1 count, and on the unit axis the landing coordinate is `0 + 0`, always in range. -/
theorem cnt2_lands {w : Nat} (e : Fin 1600000) (idx : IVec SE2 w) (n : Fin 100000) :
    cnt2.resultIdx? (ix2 e 0) idx = some (ix2 n 0) ↔ (idx (ix2 e 0)).toInt = (n.val : Int) := by
  have hs0 : SC2.size (0 : Fin 2) = 100000 := rfl
  have hs1 : SC2.size (1 : Fin 2) = 1 := rfl
  unfold ScatterDims.resultIdx?
  constructor
  · intro h
    split at h
    · rename_i hr
      have hv : (cnt2.start (ix2 e 0) idx 0 + cnt2.window (ix2 e 0) 0).toNat = n.val :=
        congrArg Fin.val (congrFun (Option.some.inj h) (0 : Fin 2))
      have hr0 := hr 0
      rw [cnt2_start0, cnt2_window] at hr0 hv
      omega
    · exact absurd h (by simp)
  · intro hz
    have hr : ∀ a, 0 ≤ cnt2.start (ix2 e 0) idx a + (cnt2.window (ix2 e 0) a : Int) ∧
        cnt2.start (ix2 e 0) idx a + (cnt2.window (ix2 e 0) a : Int) < SC2.size a := by
      intro a
      match a with
      | ⟨0, _⟩ =>
        show 0 ≤ cnt2.start (ix2 e 0) idx 0 + (cnt2.window (ix2 e 0) 0 : Int) ∧
          cnt2.start (ix2 e 0) idx 0 + (cnt2.window (ix2 e 0) 0 : Int) < SC2.size 0
        rw [cnt2_start0, cnt2_window, hz, hs0]
        have := n.isLt
        omega
      | ⟨1, _⟩ =>
        show 0 ≤ cnt2.start (ix2 e 0) idx 1 + (cnt2.window (ix2 e 0) 1 : Int) ∧
          cnt2.start (ix2 e 0) idx 1 + (cnt2.window (ix2 e 0) 1 : Int) < SC2.size 1
        rw [cnt2_start1, cnt2_window, hs1]
        omega
    rw [dif_pos hr]
    congr 1
    funext a
    match a with
    | ⟨0, _⟩ =>
      apply Fin.ext
      show (cnt2.start (ix2 e 0) idx 0 + (cnt2.window (ix2 e 0) 0 : Int)).toNat = n.val
      rw [cnt2_start0, cnt2_window, hz]; omega
    | ⟨1, _⟩ =>
      apply Fin.ext
      show (cnt2.start (ix2 e 0) idx 1 + (cnt2.window (ix2 e 0) 1 : Int)).toNat = 0
      rw [cnt2_start1, cnt2_window]; rfl

/-! ## The two counts agree -/

/-- The edge indices of the two layouts correspond by `e ↦ (e, 0)`: the second coordinate of a `1600000 × 1` index
    can only be `0`. -/
def edgeEquiv : SE1.Idx ≃ SE2.Idx where
  toFun j := ix2 (n0 := 1600000) (n1 := 1) (j 0) 0
  invFun j' := ix1 (n := 1600000) (j' 0)
  left_inv j := (eq_ix1 j).symm
  right_inv j' := by
    funext a
    match a with
    | ⟨0, _⟩ => rfl
    | ⟨1, _⟩ => exact Fin.ext (by have := idx2_lt1 j'; show 0 = (j' 1).val; omega)

/-- The count scattered into a rank-1 array equals, node by node, the count scattered into a `100000 × 1` array,
    when the operands and the updates agree along `n ↦ (n, 0)` and `e ↦ (e, 0)`: each filtered sum is the sum over
    all edges of the update where it lands and `0` where it does not; re-indexed along `e ↦ (e, 0)` the terms are
    equal, the landing conditions both being "the destination word of `e` is `n`". -/
theorem count_eq {w : Nat} (idx : IVec SE2 w) (x : SC1.Idx → EReal) (x' : SC2.Idx → EReal)
    (hx : ∀ n : Fin 100000, x (ix1 n) = x' (ix2 n 0))
    (u : SE1.Idx → EReal) (u' : SE2.Idx → EReal) (hu : ∀ e : Fin 1600000, u (ix1 e) = u' (ix2 e 0))
    (n : Fin 100000) :
    Ideal.hostScatterAdd cnt1 x idx u (ix1 n) = Ideal.hostScatterAdd cnt2 x' idx u' (ix2 n 0) := by
  unfold Ideal.hostScatterAdd
  rw [hx n, Finset.sum_filter, Finset.sum_filter]
  refine congrArg (fun s => x' (ix2 n 0) + s) ?_
  refine Fintype.sum_equiv edgeEquiv _ _ (fun j => ?_)
  obtain ⟨e, rfl⟩ : ∃ e : Fin 1600000, j = ix1 e := ⟨j 0, eq_ix1 j⟩
  show (if cnt1.resultIdx? (ix1 e) idx = some (ix1 n) then u (ix1 e) else 0)
    = if cnt2.resultIdx? (ix2 e 0) idx = some (ix2 n 0) then u' (ix2 e 0) else 0
  rw [hu e]
  exact if_congr ((cnt1_lands e idx n).trans (cnt2_lands e idx n).symm) rfl rfl

end Cert.Sage

end
-- ==== Proof.Bridge.lean ====
/-
  The two programs' normalised neighbour sums are one function.

  Both gather the rows of a feature array f at the wrapped source indices and add them onto the destination rows: the
  same operations of the same edge list. They differ in the normalisation. The kernel program counts the in-degree
  deg n into an array of 100000 numbers and multiplies row n by 1 / max(deg n, 1); the reference counts it into a
  100000 × 1 column and divides row n by max(deg n, 1). The two counts agree (an edge lands on node n of the array exactly
  when it lands on entry (n, 0) of the column), the divisor is at least one, and for such a divisor multiplying by the
  reciprocal is dividing, at the infinities too.
-/
import proofs.«172953_j52390011076772_1_alg».proof.Proof.KHost
import proofs.«172953_j52390011076772_1_alg».proof.Proof.RefValue
import proofs.«172953_j52390011076772_1_alg».proof.Proof.Count
import proofs.«172953_j52390011076772_1_alg».proof.Proof.SageSpec
import Idealize.ShloMosaic.PureOps.IdealRules
import Idealize.ShloMosaic.Lib.Pipeline.Value
import Idealize.ShloMosaic.Lib.ValueIdx

set_option maxRecDepth 16384

noncomputable section

namespace Cert.Proof.Bridge

open Idealize.ShloMosaic Idealize.ShloMosaic.ValueIdx Cert.Sage
open Cert.KernelIdeal.Hand (NK sumK meanK srcK dstK invK degK)
open Cert.ReferenceIdeal.RefValue (NR)
open Cert.ReferenceIdeal.Read

/-- The f32 word of 1.0 denotes the number one. -/
theorem one_word : Ideal.ofBits .f32 0x3F800000#32 = 1 := IdealRules.sign_bit.ideal_onePat .f32

/-- The unnormalised neighbour sums are the same operations of the same operands. -/
theorem sum_eq (ei : (⟨Cert.KernelIdeal.S2x1600000, .i32⟩ : BufTy).Contents (Elt Ideal)) (f : (⟨Cert.KernelIdeal.S100000x128, .f32⟩ : BufTy).Contents (Elt Ideal)) :
    sumK (F := Ideal) (srcK ei) (dstK ei) f
      = Host.scatterAdd (F := Ideal) (φ := .f32) Cert.ReferenceIdeal.scatter_S100000x128_S1600000x1_S1600000x128_1_0_0_1 (val_main_v11 (F := Ideal)) (val_main_v12 (F := Ideal) ei)
          (Host.gather Cert.ReferenceIdeal.gather_S100000x128_S1600000x1_S1600000x128_1_0_n_n_0_1_1128 f (val_main_v9 (F := Ideal) ei)) := by
  unfold sumK srcK dstK
  unfold val_main_v11 val_main_cst val_main_v12 val_main_v3 val_main_v2
  unfold val_main_v9 val_main_v8 val_main_v5 val_main_v7 val_main_v4 val_main_v6 val_main_c val_main_c_0 val_main_v1 val_main_v0
  rfl

/-- The kernel program's count uses the rank-1 dimension numbers. -/
theorem cntK_eq : Cert.KernelIdeal.scatter_S100000_S1600000x1_S1600000_n_0_0_1 = Cert.Sage.cnt1 := rfl

/-- The reference's count uses the column's dimension numbers. -/
theorem cntR_eq : Cert.ReferenceIdeal.scatter_S100000x1_S1600000x1_S1600000x1_1_0_0_1 = Cert.Sage.cnt2 := rfl

/-- Both counts read the destination nodes through the same column of indices. -/
theorem dstcol_eq (ei : (⟨Cert.KernelIdeal.S2x1600000, .i32⟩ : BufTy).Contents (Elt Ideal)) :
    val_main_v16 (F := Ideal) ei
      = broadcastInDim Cert.KernelIdeal.S1600000x1 ![0] Cert.KernelIdeal.Facts₀.bcast_S1600000_S1600000x1_0 (dstK (F := Ideal) ei) := by
  unfold val_main_v16 val_main_v3 val_main_v2 dstK
  rfl

/-- A scalar constant repeated over a shape reads the constant's value everywhere. -/
theorem splat_at {s : Shape} (h : Cert.KernelIdeal.S_.BroadcastsInDim s ![]) (w : BitVec 32) (i : s.Idx) :
    broadcastInDim s ![] h (constant (F := Ideal) Cert.KernelIdeal.S_ .f32 w) i = Ideal.ofBits .f32 w := rfl

/-- The host's quotient of two arrays, at an index. -/
theorem hostDivf_at {s : Shape} (a b : s.Idx → EReal) (i : s.Idx) :
    Host.divf (F := Ideal) (φ := .f32) a b i = Ideal.div (a i) (b i) := rfl

/-- At the ideal instance the host's accumulating scatter is the exact sum. -/
theorem scatterAdd_ideal {s si su : Shape} (d : ScatterDims s si su) {w : Nat} (x : s.Idx → EReal) (idx : IVec si w) (u : su.Idx → EReal) :
    Host.scatterAdd (F := Ideal) (φ := .f32) d x idx u = Ideal.hostScatterAdd d x idx u := rfl

/-- Both counts start from zero at every node. -/
theorem zeros_col (n : Fin 100000) :
    broadcastInDim Cert.KernelIdeal.S100000 ![] Cert.KernelIdeal.Facts₀.bcast_S_S100000 (constant (F := Ideal) Cert.KernelIdeal.S_ .f32 0x00000000#32) (ix1 n)
      = val_main_v15 (F := Ideal) (ix2 n 0) := by
  rw [splat_at, val_main_v15_apply, val_main_cst_2_apply, Ideal.ofBits_def]

/-- Both counts add a one for every edge. -/
theorem ones_col (e : Fin 1600000) :
    broadcastInDim Cert.KernelIdeal.S1600000 ![] Cert.KernelIdeal.Facts₀.bcast_S_S1600000 (constant (F := Ideal) Cert.KernelIdeal.S_ .f32 0x3F800000#32) (ix1 e)
      = val_main_v14 (F := Ideal) (ix2 e 0) := by
  rw [splat_at, val_main_v14_apply, val_main_cst_1_apply, Ideal.ofBits_def]

/-- The in-degree counted into an array is the in-degree counted into a column. -/
theorem deg_eq (ei : (⟨Cert.KernelIdeal.S2x1600000, .i32⟩ : BufTy).Contents (Elt Ideal)) (n : Fin 100000) :
    degK (F := Ideal) ei (ix1 n) = val_main_v17 (F := Ideal) ei (ix2 n 0) := by
  unfold degK val_main_v17
  rw [dstcol_eq, cntK_eq, cntR_eq, scatterAdd_ideal, scatterAdd_ideal]
  have key := Cert.Sage.count_eq
    (broadcastInDim Cert.KernelIdeal.S1600000x1 ![0] Cert.KernelIdeal.Facts₀.bcast_S1600000_S1600000x1_0 (dstK (F := Ideal) ei))
    (broadcastInDim Cert.KernelIdeal.S100000 ![] Cert.KernelIdeal.Facts₀.bcast_S_S100000 (constant (F := Ideal) Cert.KernelIdeal.S_ .f32 0x00000000#32))
    (val_main_v15 (F := Ideal)) zeros_col
    (broadcastInDim Cert.KernelIdeal.S1600000 ![] Cert.KernelIdeal.Facts₀.bcast_S_S1600000 (constant (F := Ideal) Cert.KernelIdeal.S_ .f32 0x3F800000#32))
    (val_main_v14 (F := Ideal)) ones_col n
  exact key

/-- The kernel program's factor of row `p`: the reciprocal of max(deg p, 1). -/
theorem inv_at (ei : (⟨Cert.KernelIdeal.S2x1600000, .i32⟩ : BufTy).Contents (Elt Ideal)) (p : Fin 100000) (q : Fin 128) :
    broadcastInDim Cert.KernelIdeal.S100000x128 ![0, 1] Cert.KernelIdeal.Facts₀.bcast_S100000x1_S100000x128_0_1 (invK (F := Ideal) ei) (ix2 p q)
      = Ideal.div 1 (max (degK (F := Ideal) ei (ix1 p)) 1) := by
  rw [broadcastInDim_apply _ _ (invK (F := Ideal) ei) (ix2 p q) (ix2 p 0) (fun a => match a with
    | ⟨0, _⟩ => by show p.val = if (100000 : Nat) = 1 then 0 else p.val; rw [if_neg (by decide)]
    | ⟨1, _⟩ => by show 0 = if (1 : Nat) = 1 then 0 else q.val; rw [if_pos rfl])]
  unfold invK
  rw [broadcastInDim_apply _ _ _ (ix2 p 0) (ix1 p) (fun a => match a with
    | ⟨0, _⟩ => by show p.val = if (100000 : Nat) = 1 then 0 else p.val; rw [if_neg (by decide)]),
    hostDivf_at, maximumf_apply, splat_at, one_word]

/-- The reference's divisor of row `p`: max(deg p, 1). -/
theorem div_at (ei : (⟨Cert.KernelIdeal.S2x1600000, .i32⟩ : BufTy).Contents (Elt Ideal)) (p : Fin 100000) (q : Fin 128) :
    val_main_v20 (F := Ideal) ei (ix2 p q) = max (val_main_v17 (F := Ideal) ei (ix2 p 0)) 1 := by
  rw [val_main_v20_apply, val_main_v19_apply,
    show idx_main_v20 (ix2 p q) = ix2 (n0 := 100000) (n1 := 1) p 0 from funext fun a => Fin.ext (by match a with | ⟨0, _⟩ => rfl | ⟨1, _⟩ => rfl),
    val_main_v18_apply, val_main_cst_3_apply, Ideal.maximumf_def, Ideal.ofBits_def, one_word]

/-- The normalised neighbour sums of the two programs agree. -/
theorem NK_eq_NR (ei : (⟨Cert.KernelIdeal.S2x1600000, .i32⟩ : BufTy).Contents (Elt Ideal)) : NK (F := Ideal) ei = NR ei := by
  funext f i
  obtain ⟨p, q, rfl⟩ : ∃ (p : Fin 100000) (q : Fin 128), i = ix2 p q := ⟨i 0, i 1, eq_ix2 i⟩
  unfold NK meanK NR
  rw [mulf_apply, hostDivf_at, sum_eq, inv_at, div_at, deg_eq]
  generalize Host.scatterAdd (F := Ideal) (φ := .f32) Cert.ReferenceIdeal.scatter_S100000x128_S1600000x1_S1600000x128_1_0_0_1 (val_main_v11 (F := Ideal)) (val_main_v12 (F := Ideal) ei)
      (Host.gather Cert.ReferenceIdeal.gather_S100000x128_S1600000x1_S1600000x128_1_0_n_n_0_1_1128 f (val_main_v9 (F := Ideal) ei)) (ix2 p q) = a
  generalize val_main_v17 (F := Ideal) ei (ix2 p 0) = d
  exact mul_one_div (le_max_right d 1) a

end Cert.Proof.Bridge

end
-- ==== Proof.lean ====
/-
  A two-layer mean-aggregating graph network: the Pallas kernel program against its jnp reference, over the extended reals.

  Both programs gather the source rows of the node features, add them onto the destination rows and normalise by the
  in-degree; both then apply a dense step (two 128 × 128 matrix products and a bias), the first followed by max(·, 0),
  and repeat on the result. The kernel program runs each dense step as a pallas region over twenty row blocks of 5000 and
  multiplies the neighbour sum by the reciprocal 1 / max(deg, 1); the reference runs whole-array products and divides by
  max(deg, 1). At the ideal instance a change of float format is the identity, a block product into a zero accumulator is
  the reference's product restricted to the block's rows, addition is commutative and associative, and multiplying by the
  reciprocal of a divisor that is at least one is dividing by it: both results are `Cert.Sage.net` of one normalised
  neighbour sum. The finiteness precondition is not used.

  The three frames: the two kernel programs' by their generated frame certificates, the reference's by its run with the
  result dropped. The idealization rewrote nothing, so `preserves` is `True`.
-/
import proofs.«172953_j52390011076772_1_alg».proof.Defs
import proofs.«172953_j52390011076772_1_alg».proof.Proof.Gen.Kernel
import proofs.«172953_j52390011076772_1_alg».proof.Proof.Gen.Kernel.Skeleton
import proofs.«172953_j52390011076772_1_alg».proof.Proof.Gen.Kernel.Launch
import proofs.«172953_j52390011076772_1_alg».proof.Proof.Gen.Kernel.Points
import proofs.«172953_j52390011076772_1_alg».proof.Proof.Gen.Kernel.Frame
import proofs.«172953_j52390011076772_1_alg».proof.Proof.Gen.KernelIdeal
import proofs.«172953_j52390011076772_1_alg».proof.Proof.Gen.KernelIdeal.Skeleton
import proofs.«172953_j52390011076772_1_alg».proof.Proof.Gen.KernelIdeal.Launch
import proofs.«172953_j52390011076772_1_alg».proof.Proof.Gen.KernelIdeal.Points
import proofs.«172953_j52390011076772_1_alg».proof.Proof.Gen.KernelIdeal.Frame
import proofs.«172953_j52390011076772_1_alg».proof.Proof.Gen.ReferenceIdeal
import proofs.«172953_j52390011076772_1_alg».proof.Proof.Gen.ReferenceIdeal.Run
import proofs.«172953_j52390011076772_1_alg».proof.Proof.Gen.ReferenceIdeal.Read
import proofs.«172953_j52390011076772_1_alg».proof.Proof.Gen.Pre_finite_inputs
import proofs.«172953_j52390011076772_1_alg».proof.Proof.SageSpec
import proofs.«172953_j52390011076772_1_alg».proof.Proof.KValue
import proofs.«172953_j52390011076772_1_alg».proof.Proof.RefValue
import proofs.«172953_j52390011076772_1_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the network of the one normalised neighbour sum, of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.run_net m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.RefValue.res_net, h0, h1, h2, h3, h4, h5, h6, h7, ← Cert.Proof.Bridge.NK_eq_NR]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
